-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_v1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x32x4096x128 : Shape := ⟨4, ![4, 32, 4096, 128]⟩
abbrev S4x32x1x128 : Shape := ⟨4, ![4, 32, 1, 128]⟩
abbrev S_ : Shape := ⟨0, ![]⟩

class Facts : Prop where
  bcast_S_S4x32x4096x128 : S_.BroadcastsInDim S4x32x4096x128 (![] : Fin 0 → Fin S4x32x4096x128.rank)
  reducesTo_S4x32x4096x128_S_d0_1_2_3 : S4x32x4096x128.ReducesTo [0, 1, 2, 3] S_
  h_S_ : 0 < S_.numel
  bcast_S_S4x32x1x128 : S_.BroadcastsInDim S4x32x1x128 (![] : Fin 0 → Fin S4x32x1x128.rank)
  reducesTo_S4x32x1x128_S_d0_1_2_3 : S4x32x1x128.ReducesTo [0, 1, 2, 3] S_

variable [Facts]

def fn_part1 {F : FTy → Type} [FloatOps F] (main_v13 : IVec S_ 1) (main_v16 : IVec S4x32x1x128 1) : IVec S_ 1 :=
  let main_c_5 : IVec S_ 1 := constantI S_ 1 1#1
  let main_v17 : IVec S_ 1 := (fun x v => Host.reduce IntOp.andi x v reducesTo_S4x32x1x128_S_d0_1_2_3 h_S_) main_v16 main_c_5
  let main_v18 : IVec S_ 1 := andi main_v13 main_v17
  main_v18

def fn {F : FTy → Type} [FloatOps F] (main_arg0 : FVec F S4x32x4096x128 .f32) (main_arg1 : FVec F S4x32x4096x128 .f32) (main_arg2 : FVec F S4x32x1x128 .f32) (main_arg3 : FVec F S4x32x1x128 .f32) : IVec S_ 1 :=
  let main_v0 : FVec F S4x32x4096x128 .f32 := Host.absf main_arg0
  let main_cst : FVec F S_ .f32 := constant S_ .f32 0x7F800000#32
  let main_v1 : FVec F S4x32x4096x128 .f32 := broadcastInDim S4x32x4096x128 ![] bcast_S_S4x32x4096x128 main_cst
  let main_v2 : IVec S4x32x4096x128 1 := cmpf .olt main_v0 main_v1
  let main_c : IVec S_ 1 := constantI S_ 1 1#1
  let main_v3 : IVec S_ 1 := (fun x v => Host.reduce IntOp.andi x v reducesTo_S4x32x4096x128_S_d0_1_2_3 h_S_) main_v2 main_c
  let main_v4 : FVec F S4x32x4096x128 .f32 := Host.absf main_arg1
  let main_cst_0 : FVec F S_ .f32 := constant S_ .f32 0x7F800000#32
  let main_v5 : FVec F S4x32x4096x128 .f32 := broadcastInDim S4x32x4096x128 ![] bcast_S_S4x32x4096x128 main_cst_0
  let main_v6 : IVec S4x32x4096x128 1 := cmpf .olt main_v4 main_v5
  let main_c_1 : IVec S_ 1 := constantI S_ 1 1#1
  let main_v7 : IVec S_ 1 := (fun x v => Host.reduce IntOp.andi x v reducesTo_S4x32x4096x128_S_d0_1_2_3 h_S_) main_v6 main_c_1
  let main_v8 : IVec S_ 1 := andi main_v3 main_v7
  let main_v9 : FVec F S4x32x1x128 .f32 := Host.absf main_arg2
  let main_cst_2 : FVec F S_ .f32 := constant S_ .f32 0x7F800000#32
  let main_v10 : FVec F S4x32x1x128 .f32 := broadcastInDim S4x32x1x128 ![] bcast_S_S4x32x1x128 main_cst_2
  let main_v11 : IVec S4x32x1x128 1 := cmpf .olt main_v9 main_v10
  let main_c_3 : IVec S_ 1 := constantI S_ 1 1#1
  let main_v12 : IVec S_ 1 := (fun x v => Host.reduce IntOp.andi x v reducesTo_S4x32x1x128_S_d0_1_2_3 h_S_) main_v11 main_c_3
  let main_v13 : IVec S_ 1 := andi main_v8 main_v12
  let main_v14 : FVec F S4x32x1x128 .f32 := Host.absf main_arg3
  let main_cst_4 : FVec F S_ .f32 := constant S_ .f32 0x7F800000#32
  let main_v15 : FVec F S4x32x1x128 .f32 := broadcastInDim S4x32x1x128 ![] bcast_S_S4x32x1x128 main_cst_4
  let main_v16 : IVec S4x32x1x128 1 := cmpf .olt main_v14 main_v15
  fn_part1 (F := F) main_v13 main_v16
-- ==== Kernel.lean ====
abbrev S4x32x4096x128 : Shape := ⟨4, ![4, 32, 4096, 128]⟩
abbrev S4x32x1x128 : Shape := ⟨4, ![4, 32, 1, 128]⟩
abbrev S128x4096x128 : Shape := ⟨3, ![128, 4096, 128]⟩
abbrev S128x1x128 : Shape := ⟨3, ![128, 1, 128]⟩
abbrev S128x4097x128 : Shape := ⟨3, ![128, 4097, 128]⟩
abbrev S1x4096x128 : Shape := ⟨3, ![1, 4096, 128]⟩
abbrev S1x1x128 : Shape := ⟨3, ![1, 1, 128]⟩
abbrev S1x4097x128 : Shape := ⟨3, ![1, 4097, 128]⟩
abbrev S4096x128 : Shape := ⟨2, ![4096, 128]⟩
abbrev S1x128 : Shape := ⟨2, ![1, 128]⟩
abbrev S4x32x4097x128 : Shape := ⟨4, ![4, 32, 4097, 128]⟩

abbrev nBuf : Space → Nat
  | .hbm => 12
  | .vmem => 12
  | .smem => 0
  | _ => 0

abbrev bufTy : (tb : Table) → Fin (tcTables nBuf tb) → BufTy
  | .hbm, ⟨0, _⟩ => ⟨S4x32x4096x128, .f32⟩
  | .hbm, ⟨1, _⟩ => ⟨S4x32x4096x128, .f32⟩
  | .hbm, ⟨2, _⟩ => ⟨S4x32x1x128, .f32⟩
  | .hbm, ⟨3, _⟩ => ⟨S4x32x1x128, .f32⟩
  | .hbm, ⟨4, _⟩ => ⟨S128x4096x128, .f32⟩
  | .hbm, ⟨5, _⟩ => ⟨S128x4096x128, .f32⟩
  | .hbm, ⟨6, _⟩ => ⟨S128x1x128, .f32⟩
  | .hbm, ⟨7, _⟩ => ⟨S128x1x128, .f32⟩
  | .hbm, ⟨8, _⟩ => ⟨S128x4097x128, .f32⟩
  | .hbm, ⟨9, _⟩ => ⟨S128x4097x128, .f32⟩
  | .hbm, ⟨10, _⟩ => ⟨S4x32x4097x128, .f32⟩
  | .hbm, ⟨11, _⟩ => ⟨S4x32x4097x128, .f32⟩
  | .local _ .vmem, ⟨0, _⟩ => ⟨S1x4096x128, .f32⟩
  | .local _ .vmem, ⟨1, _⟩ => ⟨S1x4096x128, .f32⟩
  | .local _ .vmem, ⟨2, _⟩ => ⟨S1x4096x128, .f32⟩
  | .local _ .vmem, ⟨3, _⟩ => ⟨S1x4096x128, .f32⟩
  | .local _ .vmem, ⟨4, _⟩ => ⟨S1x1x128, .f32⟩
  | .local _ .vmem, ⟨5, _⟩ => ⟨S1x1x128, .f32⟩
  | .local _ .vmem, ⟨6, _⟩ => ⟨S1x1x128, .f32⟩
  | .local _ .vmem, ⟨7, _⟩ => ⟨S1x1x128, .f32⟩
  | .local _ .vmem, ⟨8, _⟩ => ⟨S1x4097x128, .f32⟩
  | .local _ .vmem, ⟨9, _⟩ => ⟨S1x4097x128, .f32⟩
  | .local _ .vmem, ⟨10, _⟩ => ⟨S1x4097x128, .f32⟩
  | .local _ .vmem, ⟨11, _⟩ => ⟨S1x4097x128, .f32⟩
  | _, _ => ⟨S4x32x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4097x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x4097x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S4x32x4096x128_S128x4096x128 : S4x32x4096x128.ShapeCasts S128x4096x128
  shapeCasts_S4x32x1x128_S128x1x128 : S4x32x1x128.ShapeCasts S128x1x128
  inb_S1x4096x128_S1x4096x128_0_0_0 : ∀ a, (![0, 0, 0] : Fin 3 → Nat) a + S1x4096x128.size a ≤ S1x4096x128.size a
  h_S1x4096x128 : 0 < S1x4096x128.numel
  shapeCasts_S1x4096x128_S4096x128 : S1x4096x128.ShapeCasts S4096x128
  inb_S1x4097x128_S1x4096x128_0_0_0 : ∀ a, (![0, 0, 0] : Fin 3 → Nat) a + S1x4096x128.size a ≤ S1x4097x128.size a
  shapeCasts_S4096x128_S1x4096x128 : S4096x128.ShapeCasts S1x4096x128
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  inb_S1x4097x128_S1x1x128_0_4096_0 : ∀ a, (![0, 4096, 0] : Fin 3 → Nat) a + S1x1x128.size a ≤ S1x4097x128.size a
  shapeCasts_S1x128_S1x1x128 : S1x128.ShapeCasts S1x1x128
  shapeCasts_S128x4097x128_S4x32x4097x128 : S128x4097x128.ShapeCasts S4x32x4097x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x128.size a ≤ S128x4096x128.size a
  hwx0_0 : ∀ i : grid0.Coords, EltTy.bits .f32 = 32 ∨ (Rect.block (s := S128x4096x128) S1x4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x128.size a ≤ S128x4096x128.size a
  hwx0_1 : ∀ i : grid0.Coords, EltTy.bits .f32 = 32 ∨ (Rect.block (s := S128x4096x128) S1x4096x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S128x1x128.size a
  hwx0_2 : ∀ i : grid0.Coords, EltTy.bits .f32 = 32 ∨ (Rect.block (s := S128x1x128) S1x1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x128.size a ≤ S128x1x128.size a
  hwx0_3 : ∀ i : grid0.Coords, EltTy.bits .f32 = 32 ∨ (Rect.block (s := S128x1x128) S1x1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x4097x128.size a ≤ S128x4097x128.size a
  hwx0_4 : ∀ i : grid0.Coords, EltTy.bits .f32 = 32 ∨ (Rect.block (s := S128x4097x128) S1x4097x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x4097x128.size a ≤ S128x4097x128.size a
  hwx0_5 : ∀ i : grid0.Coords, EltTy.bits .f32 = 32 ∨ (Rect.block (s := S128x4097x128) S1x4097x128.size (cc0_transform_5 i) (hinb0_5 i)).WholeWords (EltTy.packing .f32)

variable [Facts₀]

abbrev win0_0 : Pipeline.Window sig grid0 :=
  Pipeline.Window.ofSpec (Memref.whole main_v0) S1x4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_0) S1x4097x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_1) S1x4097x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x32x4096x128 : Shape := ⟨4, ![4, 32, 4096, 128]⟩
abbrev S4x32x1x128 : Shape := ⟨4, ![4, 32, 1, 128]⟩
abbrev S4x32x4097x128 : Shape := ⟨4, ![4, 32, 4097, 128]⟩

abbrev nBuf : Space → Nat
  | .hbm => 6
  | .vmem => 0
  | .smem => 0
  | _ => 0

abbrev bufTy : (tb : Table) → Fin (tcTables nBuf tb) → BufTy
  | .hbm, ⟨0, _⟩ => ⟨S4x32x4096x128, .f32⟩
  | .hbm, ⟨1, _⟩ => ⟨S4x32x4096x128, .f32⟩
  | .hbm, ⟨2, _⟩ => ⟨S4x32x1x128, .f32⟩
  | .hbm, ⟨3, _⟩ => ⟨S4x32x1x128, .f32⟩
  | .hbm, ⟨4, _⟩ => ⟨S4x32x4097x128, .f32⟩
  | .hbm, ⟨5, _⟩ => ⟨S4x32x4097x128, .f32⟩
  | _, _ => ⟨S4x32x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩

abbrev nD : Nat := 1
abbrev τ : Topo := Topo.v7x

variable {F : FTy → Type} [FloatOps F]

class Facts₀ : Prop where
  concatenates_S4x32x4096x128_S4x32x1x128_S4x32x4097x128_d2 : Shape.Concatenates [S4x32x4096x128, S4x32x1x128] S4x32x4097x128 2

variable [Facts₀]

class Facts : Prop extends Facts₀ where

variable [Facts]
-- ==== Proof.AppendRows.lean ====
/-
  Appending one row to a cache, as a function of array indices.

  A cache x of shape [4, 32, 4096, 128] and a new row v of shape [4, 32, 1, 128] are both read per
  (batch, head) pair: flattening the two leading axes gives [128, 4096, 128] and [128, 1, 128].  For each of
  the 128 pairs the appended block has 4097 rows: rows 0 .. 4095 are the cache's, row 4096 is the new row.
  Un-flattening the result back to [4, 32, 4097, 128] gives exactly the concatenation of x and v along the
  sequence axis (axis 2): both read x at (b, h, s, d) when s < 4096 and v at (b, h, 0, d) when s = 4096.
  The flattening and its inverse keep row-major positions, and b * 32 + h is the flattened pair's index on
  both sides, so the two descriptions agree index by index for values of any type.
-/
import Idealize.ShloMosaic.Lib.Pipeline.Value
import Idealize.ShloMosaic.Lib.ValueIdx

noncomputable section

namespace Cert.KvAppend

open Idealize.ShloMosaic Idealize.ShloMosaic.ValueIdx

/-- The cache: batch, head, sequence position, feature. -/
abbrev SCache : Shape := ⟨4, ![4, 32, 4096, 128]⟩
/-- The new row, one sequence position. -/
abbrev SRow : Shape := ⟨4, ![4, 32, 1, 128]⟩
/-- The appended cache. -/
abbrev SOut : Shape := ⟨4, ![4, 32, 4097, 128]⟩
/-- The same three with batch and head flattened to one axis of 128 pairs. -/
abbrev SCacheFlat : Shape := ⟨3, ![128, 4096, 128]⟩
abbrev SRowFlat : Shape := ⟨3, ![128, 1, 128]⟩
abbrev SOutFlat : Shape := ⟨3, ![128, 4097, 128]⟩

variable {α : Type}

/-- Per (batch, head) pair: rows below 4096 are the cache's rows, row 4096 is the new row. -/
def appendRows (a : SCacheFlat.Idx → α) (r : SRowFlat.Idx → α) : SOutFlat.Idx → α := fun i =>
  if h : (i 1).val < 4096 then a (ix3 (i 0) (⟨(i 1).val, h⟩ : Fin 4096) (i 2)) else r (ix3 (i 0) (0 : Fin 1) (i 2))

/-- A row below 4096 of the appended block is the cache's. -/
theorem appendRows_lt (a : SCacheFlat.Idx → α) (r : SRowFlat.Idx → α) (p : Fin 128) (s : Fin 4097) (d : Fin 128)
    (h : s.val < 4096) : appendRows a r (ix3 p s d) = a (ix3 p (⟨s.val, h⟩ : Fin 4096) d) := by
  unfold appendRows
  exact dif_pos h

/-- Row 4096 of the appended block is the new row. -/
theorem appendRows_ge (a : SCacheFlat.Idx → α) (r : SRowFlat.Idx → α) (p : Fin 128) (s : Fin 4097) (d : Fin 128)
    (h : ¬ s.val < 4096) : appendRows a r (ix3 p s d) = r (ix3 p (0 : Fin 1) d) := by
  unfold appendRows
  exact dif_neg h

/-- An index of the appended array whose row is a row of the cache reads the cache at the index with the same
    pair, row and feature coordinates. -/
theorem appendRows_of_cache (a : SCacheFlat.Idx → α) (r : SRowFlat.Idx → α) (i : SOutFlat.Idx) (k : SCacheFlat.Idx)
    (h0 : (i 0).val = (k 0).val) (h1 : (i 1).val = (k 1).val) (h2 : (i 2).val = (k 2).val) :
    appendRows a r i = a k := by
  have hk1 : (k 1).val < 4096 := (k 1).isLt
  unfold appendRows
  rw [dif_pos (by omega : (i 1).val < 4096)]
  congr 1
  funext b
  match b with
  | ⟨0, _⟩ => exact Fin.ext h0
  | ⟨1, _⟩ => exact Fin.ext h1
  | ⟨2, _⟩ => exact Fin.ext h2

/-- An index of the appended array in row 4096 reads the new row at the same pair and feature coordinates. -/
theorem appendRows_of_row (a : SCacheFlat.Idx → α) (r : SRowFlat.Idx → α) (i : SOutFlat.Idx) (k : SRowFlat.Idx)
    (h0 : (i 0).val = (k 0).val) (h1 : (i 1).val = 4096 + (k 1).val) (h2 : (i 2).val = (k 2).val) :
    appendRows a r i = r k := by
  have hk1 : (k 1).val < 1 := (k 1).isLt
  unfold appendRows
  rw [dif_neg (by omega : ¬ (i 1).val < 4096)]
  congr 1
  funext b
  match b with
  | ⟨0, _⟩ => exact Fin.ext h0
  | ⟨1, _⟩ => exact Fin.ext (by show (0 : Nat) = (k 1).val; omega)
  | ⟨2, _⟩ => exact Fin.ext h2

/-- The flattened pair index of (b, h). -/
abbrev pairIx (b : Fin 4) (h : Fin 32) : Fin 128 := ⟨b.val * 32 + h.val, by have := b.isLt; have := h.isLt; omega⟩

/-- Flatten, append per pair, un-flatten: at (b, h, s, d) this is the concatenation along the sequence axis. -/
theorem unflatten_appendRows_apply (x : SCache.Idx → α) (v : SRow.Idx → α)
    (hx : SCache.ShapeCasts SCacheFlat) (hv : SRow.ShapeCasts SRowFlat) (ho : SOutFlat.ShapeCasts SOut)
    (hc : Shape.Concatenates [SCache, SRow] SOut 2) (b : Fin 4) (h : Fin 32) (s : Fin 4097) (d : Fin 128) :
    shapeCast SOut (appendRows (shapeCast SCacheFlat x hx) (shapeCast SRowFlat v hv)) ho (ix4 b h s d)
      = concatenate SOut 2 [⟨SCache, x⟩, ⟨SRow, v⟩] hc (ix4 b h s d) := by
  rw [shapeCast_apply _ ho (ix4 b h s d) (ix3 (pairIx b h) s d)
    (by rw [Shape.rowMajor_val_three, Shape.rowMajor_val_four]; rfl)]
  by_cases hs : s.val < 4096
  · rw [appendRows_lt _ _ _ _ _ hs,
      shapeCast_apply _ hx (ix3 (pairIx b h) (⟨s.val, hs⟩ : Fin 4096) d) (ix4 b h (⟨s.val, hs⟩ : Fin 4096) d)
        (by rw [Shape.rowMajor_val_three, Shape.rowMajor_val_four]; rfl)]
    refine (concatenate_pair_apply_left (2 : Fin SOut.rank) x v hc (ix4 b h s d) rfl
      (ix4 b h (⟨s.val, hs⟩ : Fin 4096) d) (fun a => ?_)).symm
    match a with
    | ⟨0, _⟩ => rfl
    | ⟨1, _⟩ => rfl
    | ⟨2, _⟩ => rfl
    | ⟨3, _⟩ => rfl
  · rw [appendRows_ge _ _ _ _ _ hs,
      shapeCast_apply _ hv (ix3 (pairIx b h) (0 : Fin 1) d) (ix4 b h (0 : Fin 1) d)
        (by rw [Shape.rowMajor_val_three, Shape.rowMajor_val_four]; rfl)]
    have hs' : s.val = 4096 := by have := s.isLt; omega
    refine (concatenate_pair_apply_right (2 : Fin SOut.rank) x v hc (ix4 b h s d) rfl rfl
      (ix4 b h (0 : Fin 1) d) (fun a ha => ?_) ?_).symm
    · match a with
      | ⟨0, _⟩ => rfl
      | ⟨1, _⟩ => rfl
      | ⟨2, _⟩ => exact absurd rfl ha
      | ⟨3, _⟩ => rfl
    · show (0 : Nat) + 4096 = s.val
      omega

/-- The same as one equation of arrays. -/
theorem unflatten_appendRows (x : SCache.Idx → α) (v : SRow.Idx → α)
    (hx : SCache.ShapeCasts SCacheFlat) (hv : SRow.ShapeCasts SRowFlat) (ho : SOutFlat.ShapeCasts SOut)
    (hc : Shape.Concatenates [SCache, SRow] SOut 2) :
    shapeCast SOut (appendRows (shapeCast SCacheFlat x hx) (shapeCast SRowFlat v hv)) ho
      = concatenate SOut 2 [⟨SCache, x⟩, ⟨SRow, v⟩] hc := by
  funext j
  rw [eq_ix4 j]
  exact unflatten_appendRows_apply x v hx hv ho hc (j 0) (j 1) (j 2) (j 3)

end Cert.KvAppend

end
-- ==== Proof.RowBlock.lean ====
/-
  One (batch, head) pair's block of the appended cache, as a function of block indices.

  The block has shape [1, 4097, 128].  Its rows 0 .. 4095 are the rows of the pair's cache block
  [1, 4096, 128]; its last row, row 4096, is the pair's new row [1, 1, 128].  The two lemmas say which of the
  two a given index of the block reads, from the arithmetic of its row coordinate alone; the leading
  coordinate has one value, so it never matters.
-/
import Idealize.ShloMosaic.Lib.ValueIdx

noncomputable section

namespace Cert.KvAppend

open Idealize.ShloMosaic Idealize.ShloMosaic.ValueIdx

/-- One pair's cache block, new row, and appended block. -/
abbrev SCacheBlk : Shape := ⟨3, ![1, 4096, 128]⟩
abbrev SRowBlk : Shape := ⟨3, ![1, 1, 128]⟩
abbrev SOutBlk : Shape := ⟨3, ![1, 4097, 128]⟩

variable {α : Type}

/-- The appended block: the cache block's rows, then the new row. -/
def appendRowBlk (a : SCacheBlk.Idx → α) (r : SRowBlk.Idx → α) : SOutBlk.Idx → α := fun y =>
  if h : (y 1).val < 4096 then a (ix3 (0 : Fin 1) (⟨(y 1).val, h⟩ : Fin 4096) (y 2))
  else r (ix3 (0 : Fin 1) (0 : Fin 1) (y 2))

/-- An index of the appended block whose row is a row of the cache block reads the cache block there. -/
theorem appendRowBlk_of_cache (a : SCacheBlk.Idx → α) (r : SRowBlk.Idx → α) (y : SOutBlk.Idx) (x : SCacheBlk.Idx)
    (h1 : (y 1).val = (x 1).val) (h2 : (y 2).val = (x 2).val) : appendRowBlk a r y = a x := by
  have hx0 : (x 0).val < 1 := (x 0).isLt
  have hx1 : (x 1).val < 4096 := (x 1).isLt
  unfold appendRowBlk
  rw [dif_pos (by omega : (y 1).val < 4096)]
  congr 1
  funext b
  match b with
  | ⟨0, _⟩ => exact Fin.ext (by show (0 : Nat) = (x 0).val; omega)
  | ⟨1, _⟩ => exact Fin.ext h1
  | ⟨2, _⟩ => exact Fin.ext h2

/-- An index of the appended block in row 4096 reads the new row. -/
theorem appendRowBlk_of_row (a : SCacheBlk.Idx → α) (r : SRowBlk.Idx → α) (y : SOutBlk.Idx) (x : SRowBlk.Idx)
    (h1 : (y 1).val = 4096 + (x 1).val) (h2 : (y 2).val = (x 2).val) : appendRowBlk a r y = r x := by
  have hx0 : (x 0).val < 1 := (x 0).isLt
  have hx1 : (x 1).val < 1 := (x 1).isLt
  unfold appendRowBlk
  rw [dif_neg (by omega : ¬ (y 1).val < 4096)]
  congr 1
  funext b
  match b with
  | ⟨0, _⟩ => exact Fin.ext (by show (0 : Nat) = (x 0).val; omega)
  | ⟨1, _⟩ => exact Fin.ext (by show (0 : Nat) = (x 1).val; omega)
  | ⟨2, _⟩ => exact Fin.ext h2

end Cert.KvAppend

end
-- ==== Proof.BlockStores.lean ====
/-
  What one run of the kernel body leaves in its two output blocks.

  The body stores twice into each output block of shape [1, 4097, 128]: the loaded cache block through the
  rectangle of rows 0 .. 4095, and the loaded new row through the rectangle of row 4096.  Each stored value is
  the loaded block passed through a pair of inverse reshapes (drop the leading unit axis, put it back), so it is
  the loaded block itself.  The two rectangles tile the block, so the block ends as the cache block's rows
  followed by the new row, for the keys and for the values alike.  The body also loads the output block before
  each store, but never uses what it loaded.
-/
import proofs.«139298_j18270790877290_1_alg».proof.Proof.Gen.KernelIdeal.Frame
import proofs.«139298_j18270790877290_1_alg».proof.Proof.RowBlock
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx

namespace Cert.KernelIdeal.KvValue

open Cert.KernelIdeal Cert.KernelIdeal.Gen Cert.KvAppend

variable {F : FTy → Type} [FloatOps F]

theorem zero3 : (![0, 0, 0] : Fin 3 → Nat) = fun _ => 0 := funext fun a => by fin_cases a <;> rfl

/-- Dropping the leading unit axis of a cache block and putting it back gives the block. -/
theorem pay_cache_k (v : Vec F S1x4096x128 .f32) : k0_pay1 v = v := by
  unfold k0_pay1
  exact shapeCast_shapeCast _ _ _
theorem pay_cache_v (v : Vec F S1x4096x128 .f32) : k0_pay3 v = v := by
  unfold k0_pay3
  exact shapeCast_shapeCast _ _ _
/-- The same for a new row. -/
theorem pay_row_k (v : Vec F S1x1x128 .f32) : k0_pay2 v = v := by
  unfold k0_pay2
  exact shapeCast_shapeCast _ _ _
theorem pay_row_v (v : Vec F S1x1x128 .f32) : k0_pay4 v = v := by
  unfold k0_pay4
  exact shapeCast_shapeCast _ _ _

/-- The key output block after the body: the key cache block's rows, then the new key row. -/
theorem out_k (c : Dev nD) (i : grid0.Coords) (arg1 : Memref sig .tc .vmem S1x4096x128 .f32) (harg1 : arg1.IsWhole) (arg2 : Memref sig .tc .vmem S1x4096x128 .f32) (harg2 : arg2.IsWhole) (arg3 : Memref sig .tc .vmem S1x1x128 .f32) (harg3 : arg3.IsWhole) (arg4 : Memref sig .tc .vmem S1x1x128 .f32) (harg4 : arg4.IsWhole) (arg5 : Memref sig .tc .vmem S1x4097x128 .f32) (harg5 : arg5.IsWhole) (arg6 : Memref sig .tc .vmem S1x4097x128 .f32) (harg6 : arg6.IsWhole)
    (x0 : Vec F S1x4096x128 .f32) (x1 : Vec F S1x4096x128 .f32) (x2 : Vec F S1x1x128 .f32) (x3 : Vec F S1x1x128 .f32) :
    out0_A_4 c i arg1 harg1 arg2 harg2 arg3 harg3 arg4 harg4 arg5 harg5 arg6 harg6 x0 x1 x2 x3 = appendRowBlk x0 x2 := by
  funext y
  unfold out0_A_4
  rw [View.read_writes_junk_apply_eq_canon]
  refine View.canon_apply_of_pieces (appendRowBlk x0 x2) _ ?_ y (cover0_A_4 c i arg1 harg1 arg2 harg2 arg3 harg3 arg4 harg4 arg5 harg5 arg6 harg6 x0 x1 x2 x3 y)
  unfold kernelRun0_A
  dsimp only
  sl_unfold_words
  intro p hp
  rcases List.mem_cons.mp hp with rfl | hp
  · intro x
    dsimp only
    rw [pay_row_k]
    simp only [View.readAt_eq_ld, harg3.read_unread]
    show x2 _ = appendRowBlk x0 x2 _
    refine (appendRowBlk_of_row x0 x2 _ _ ?_ ?_).symm
    · show 4096 + 1 * (x 1).val = 4096 + (0 + 1 * (x 1).val); omega
    · show 0 + 1 * (x 2).val = 0 + 1 * (x 2).val; rfl
  · rcases List.mem_cons.mp hp with rfl | hp
    · intro x
      dsimp only
      rw [pay_cache_k]
      simp only [View.readAt_eq_ld, harg1.read_unread]
      show x0 _ = appendRowBlk x0 x2 _
      refine (appendRowBlk_of_cache x0 x2 _ _ ?_ ?_).symm
      · show 0 + 1 * (x 1).val = 0 + 1 * (x 1).val; rfl
      · show 0 + 1 * (x 2).val = 0 + 1 * (x 2).val; rfl
    · exact absurd hp List.not_mem_nil

/-- The value output block after the body: the value cache block's rows, then the new value row. -/
theorem out_v (c : Dev nD) (i : grid0.Coords) (arg1 : Memref sig .tc .vmem S1x4096x128 .f32) (harg1 : arg1.IsWhole) (arg2 : Memref sig .tc .vmem S1x4096x128 .f32) (harg2 : arg2.IsWhole) (arg3 : Memref sig .tc .vmem S1x1x128 .f32) (harg3 : arg3.IsWhole) (arg4 : Memref sig .tc .vmem S1x1x128 .f32) (harg4 : arg4.IsWhole) (arg5 : Memref sig .tc .vmem S1x4097x128 .f32) (harg5 : arg5.IsWhole) (arg6 : Memref sig .tc .vmem S1x4097x128 .f32) (harg6 : arg6.IsWhole)
    (x0 : Vec F S1x4096x128 .f32) (x1 : Vec F S1x4096x128 .f32) (x2 : Vec F S1x1x128 .f32) (x3 : Vec F S1x1x128 .f32) :
    out0_A_5 c i arg1 harg1 arg2 harg2 arg3 harg3 arg4 harg4 arg5 harg5 arg6 harg6 x0 x1 x2 x3 = appendRowBlk x1 x3 := by
  funext y
  unfold out0_A_5
  rw [View.read_writes_junk_apply_eq_canon]
  refine View.canon_apply_of_pieces (appendRowBlk x1 x3) _ ?_ y (cover0_A_5 c i arg1 harg1 arg2 harg2 arg3 harg3 arg4 harg4 arg5 harg5 arg6 harg6 x0 x1 x2 x3 y)
  unfold kernelRun0_A
  dsimp only
  sl_unfold_words
  intro p hp
  rcases List.mem_cons.mp hp with rfl | hp
  · intro x
    dsimp only
    rw [pay_row_v]
    simp only [View.readAt_eq_ld, harg4.read_unread]
    show x3 _ = appendRowBlk x1 x3 _
    refine (appendRowBlk_of_row x1 x3 _ _ ?_ ?_).symm
    · show 4096 + 1 * (x 1).val = 4096 + (0 + 1 * (x 1).val); omega
    · show 0 + 1 * (x 2).val = 0 + 1 * (x 2).val; rfl
  · rcases List.mem_cons.mp hp with rfl | hp
    · intro x
      dsimp only
      rw [pay_cache_v]
      simp only [View.readAt_eq_ld, harg2.read_unread]
      show x1 _ = appendRowBlk x1 x3 _
      refine (appendRowBlk_of_cache x1 x3 _ _ ?_ ?_).symm
      · show 0 + 1 * (x 1).val = 0 + 1 * (x 1).val; rfl
      · show 0 + 1 * (x 2).val = 0 + 1 * (x 2).val; rfl
    · exact absurd hp List.not_mem_nil

end Cert.KernelIdeal.KvValue

end
-- ==== Proof.OutputArrays.lean ====
/-
  From the blocks the grid points write back to the two whole output arrays.

  The grid has 128 points, one per (batch, head) pair.  At point t every window's block index is (t, 0, 0): the
  cache windows read block t of the flattened [128, 4096, 128] caches, the row windows block t of the flattened
  [128, 1, 128] new rows, and the output windows write block t of the flattened [128, 4097, 128] outputs.  So what
  point t writes back is block t of ONE function of the flattened input arrays: per pair, the cache's 4096 rows
  followed by the new row.  The 128 output blocks tile the output array (index i lies in the block of point i 0),
  hence after the region each output array is that function.
-/
import proofs.«139298_j18270790877290_1_alg».proof.Proof.Gen.KernelIdeal.Frame
import proofs.«139298_j18270790877290_1_alg».proof.Proof.BlockStores
import proofs.«139298_j18270790877290_1_alg».proof.Proof.AppendRows
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KvValue

open Cert.KernelIdeal Cert.KernelIdeal.Gen Cert.KvAppend

variable {F : FTy → Type} [FloatOps F]
variable (m : (ℓ : Loc nD τ sig) → Buf (Elt F) ℓ) (ρ : Dev nD → PrngReg)

/-- The flattened arrays as the region finds them: key cache, value cache, new key row, new value row. -/
abbrev kCache (c : Dev nD) : Vec F S128x4096x128 .f32 := V m c main_v0
abbrev vCache (c : Dev nD) : Vec F S128x4096x128 .f32 := V m c main_v1
abbrev kRow (c : Dev nD) : Vec F S128x1x128 .f32 := V m c main_v2
abbrev vRow (c : Dev nD) : Vec F S128x1x128 .f32 := V m c main_v3

/-- Every window's block index at point t is (t, 0, 0): decided over the 128 points. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0
    ∧ win0_5.index t (0 : Fin 3) = t.val ∧ win0_5.index t (1 : Fin 3) = 0 ∧ win0_5.index t (2 : Fin 3) = 0 :=
  (by decide +kernel : ∀ t : Fin grid0.N, _)

/-- Window 0's block at point t, at (0, s, d), is its flattened array at (t, s, d). -/
theorem kCache_blk (c : Dev nD) (t : Fin cfg0.N) (z : S1x4096x128.Idx) (k : S128x4096x128.Idx)
    (h0 : (k 0).val = t.val) (h1 : (k 1).val = (z 1).val) (h2 : (k 2).val = (z 2).val) :
    (iblk m c 0 t : Vec F S1x4096x128 .f32) z = kCache m c k := by
  have e := idx_facts t
  have hz0 : (z 0).val < 1 := (z 0).isLt
  unfold iblk
  rw [View.read_apply]
  show kCache m c (((cfg0.win 0).blk t).view.emb z) = kCache m c k
  refine congrArg (kCache m c) ?_
  funext a
  apply Fin.ext
  match a with
  | ⟨0, _⟩ => show win0_0.index t (0 : Fin 3) * 1 + 1 * (z 0).val = (k 0).val; omega
  | ⟨1, _⟩ => show win0_0.index t (1 : Fin 3) * 4096 + 1 * (z 1).val = (k 1).val; omega
  | ⟨2, _⟩ => show win0_0.index t (2 : Fin 3) * 128 + 1 * (z 2).val = (k 2).val; omega

/-- Window 1's block at point t, at (0, s, d), is its flattened array at (t, s, d). -/
theorem vCache_blk (c : Dev nD) (t : Fin cfg0.N) (z : S1x4096x128.Idx) (k : S128x4096x128.Idx)
    (h0 : (k 0).val = t.val) (h1 : (k 1).val = (z 1).val) (h2 : (k 2).val = (z 2).val) :
    (iblk m c 1 t : Vec F S1x4096x128 .f32) z = vCache m c k := by
  have e := idx_facts t
  have hz0 : (z 0).val < 1 := (z 0).isLt
  unfold iblk
  rw [View.read_apply]
  show vCache m c (((cfg0.win 1).blk t).view.emb z) = vCache m c k
  refine congrArg (vCache m c) ?_
  funext a
  apply Fin.ext
  match a with
  | ⟨0, _⟩ => show win0_1.index t (0 : Fin 3) * 1 + 1 * (z 0).val = (k 0).val; omega
  | ⟨1, _⟩ => show win0_1.index t (1 : Fin 3) * 4096 + 1 * (z 1).val = (k 1).val; omega
  | ⟨2, _⟩ => show win0_1.index t (2 : Fin 3) * 128 + 1 * (z 2).val = (k 2).val; omega

/-- Window 2's block at point t, at (0, s, d), is its flattened array at (t, s, d). -/
theorem kRow_blk (c : Dev nD) (t : Fin cfg0.N) (z : S1x1x128.Idx) (k : S128x1x128.Idx)
    (h0 : (k 0).val = t.val) (h1 : (k 1).val = (z 1).val) (h2 : (k 2).val = (z 2).val) :
    (iblk m c 2 t : Vec F S1x1x128 .f32) z = kRow m c k := by
  have e := idx_facts t
  have hz0 : (z 0).val < 1 := (z 0).isLt
  unfold iblk
  rw [View.read_apply]
  show kRow m c (((cfg0.win 2).blk t).view.emb z) = kRow m c k
  refine congrArg (kRow m c) ?_
  funext a
  apply Fin.ext
  match a with
  | ⟨0, _⟩ => show win0_2.index t (0 : Fin 3) * 1 + 1 * (z 0).val = (k 0).val; omega
  | ⟨1, _⟩ => show win0_2.index t (1 : Fin 3) * 1 + 1 * (z 1).val = (k 1).val; omega
  | ⟨2, _⟩ => show win0_2.index t (2 : Fin 3) * 128 + 1 * (z 2).val = (k 2).val; omega

/-- Window 3's block at point t, at (0, s, d), is its flattened array at (t, s, d). -/
theorem vRow_blk (c : Dev nD) (t : Fin cfg0.N) (z : S1x1x128.Idx) (k : S128x1x128.Idx)
    (h0 : (k 0).val = t.val) (h1 : (k 1).val = (z 1).val) (h2 : (k 2).val = (z 2).val) :
    (iblk m c 3 t : Vec F S1x1x128 .f32) z = vRow m c k := by
  have e := idx_facts t
  have hz0 : (z 0).val < 1 := (z 0).isLt
  unfold iblk
  rw [View.read_apply]
  show vRow m c (((cfg0.win 3).blk t).view.emb z) = vRow m c k
  refine congrArg (vRow m c) ?_
  funext a
  apply Fin.ext
  match a with
  | ⟨0, _⟩ => show win0_3.index t (0 : Fin 3) * 1 + 1 * (z 0).val = (k 0).val; omega
  | ⟨1, _⟩ => show win0_3.index t (1 : Fin 3) * 1 + 1 * (z 1).val = (k 1).val; omega
  | ⟨2, _⟩ => show win0_3.index t (2 : Fin 3) * 128 + 1 * (z 2).val = (k 2).val; omega

/-- What point t writes back of the k output: block t of the k cache's rows followed by the new k row. -/
theorem flushed_k (c : Dev nD) (t : Fin cfg0.N) :
    (dats m 0 c).flushed 4 t = ((cfg0.win 4).blk t).view.read (Elt F) (appendRows (kCache m c) (kRow m c)) := by
  show (cfg0.win 4).cut (grid0.coords t) ((dats m 0 c).after 4 t) = _
  rw [after0_4]
  have e := idx_facts t
  have htN : t.val < 128 := lt_of_lt_of_eq t.isLt N_0
  funext y
  have hy0 : (y 0).val < 1 := (y 0).isLt
  have hy2 : (y 2).val < 128 := (y 2).isLt
  rw [View.read_apply]
  show (outsAt0 m c t).1 ((cfg0.win 4).xinj (grid0.coords t) y) = appendRows (kCache m c) (kRow m c) (((cfg0.win 4).blk t).view.emb y)
  unfold outsAt0
  dsimp only
  refine (congrFun (out_k c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) (iblk m c 3 t)) _).trans ?_
  by_cases hy : (y 1).val < 4096
  · refine (appendRowBlk_of_cache _ _ _ (ix3 (0 : Fin 1) (⟨(y 1).val, hy⟩ : Fin 4096) (⟨(y 2).val, hy2⟩ : Fin 128)) rfl rfl).trans ?_
    refine (kCache_blk m c t _ (ix3 (⟨t.val, htN⟩ : Fin 128) (⟨(y 1).val, hy⟩ : Fin 4096) (⟨(y 2).val, hy2⟩ : Fin 128)) rfl rfl rfl).trans ?_
    refine (appendRows_of_cache _ _ _ _ ?_ ?_ ?_).symm
    · show win0_4.index t (0 : Fin 3) * 1 + 1 * (y 0).val = t.val; omega
    · show win0_4.index t (1 : Fin 3) * 4097 + 1 * (y 1).val = (y 1).val; omega
    · show win0_4.index t (2 : Fin 3) * 128 + 1 * (y 2).val = (y 2).val; omega
  · have hy1 : (y 1).val < 4097 := (y 1).isLt
    refine (appendRowBlk_of_row _ _ _ (ix3 (0 : Fin 1) (0 : Fin 1) (⟨(y 2).val, hy2⟩ : Fin 128)) ?_ rfl).trans ?_
    · show (y 1).val = 4096 + 0; omega
    refine (kRow_blk m c t _ (ix3 (⟨t.val, htN⟩ : Fin 128) (0 : Fin 1) (⟨(y 2).val, hy2⟩ : Fin 128)) rfl rfl rfl).trans ?_
    refine (appendRows_of_row _ _ _ _ ?_ ?_ ?_).symm
    · show win0_4.index t (0 : Fin 3) * 1 + 1 * (y 0).val = t.val; omega
    · show win0_4.index t (1 : Fin 3) * 4097 + 1 * (y 1).val = 4096 + 0; omega
    · show win0_4.index t (2 : Fin 3) * 128 + 1 * (y 2).val = (y 2).val; omega

/-- Every index of the k output array lies in the block of the point its pair coordinate names. -/
theorem cover_k (i : S128x4097x128.Idx) :
    ∃ t : Fin cfg0.N, (cfg0.win 4).flush t = true ∧ i ∈ ((cfg0.win 4).blk t).view.set := by
  have hi0 : (i 0).val < 128 := (i 0).isLt
  have hi1 : (i 1).val < 4097 := (i 1).isLt
  have hi2 : (i 2).val < 128 := (i 2).isLt
  obtain ⟨t, ht⟩ : ∃ t : Fin cfg0.N, t.val = (i 0).val := ⟨⟨(i 0).val, lt_of_lt_of_eq hi0 N_0.symm⟩, rfl⟩
  have e := idx_facts t
  refine ⟨t, flush0_4 t, ?_⟩
  show i ∈ ((View.whole main_v4_0).slice (win0_4.rect t)).set
  rw [View.set_slice_whole, Rect.mem_set_unit]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 4097 ≤ (i 1).val ∧ (i 1).val < win0_4.index t (1 : Fin 3) * 4097 + 4097; omega
  | ⟨2, _⟩ => show win0_4.index t (2 : Fin 3) * 128 ≤ (i 2).val ∧ (i 2).val < win0_4.index t (2 : Fin 3) * 128 + 128; omega

/-- The k output array after the region: per pair, the k cache's rows followed by the new k row. -/
theorem final_k (c : Dev nD) : (dats m 0 c).arrAt 4 cfg0.N = appendRows (kCache m c) (kRow m c) :=
  (dats m 0 c).arrAt_eq_of_cover 4 (appendRows (kCache m c) (kRow m c)) (fun t _ => flushed_k m c t) cover_k

/-- What point t writes back of the v output: block t of the v cache's rows followed by the new v row. -/
theorem flushed_v (c : Dev nD) (t : Fin cfg0.N) :
    (dats m 0 c).flushed 5 t = ((cfg0.win 5).blk t).view.read (Elt F) (appendRows (vCache m c) (vRow m c)) := by
  show (cfg0.win 5).cut (grid0.coords t) ((dats m 0 c).after 5 t) = _
  rw [after0_5]
  have e := idx_facts t
  have htN : t.val < 128 := lt_of_lt_of_eq t.isLt N_0
  funext y
  have hy0 : (y 0).val < 1 := (y 0).isLt
  have hy2 : (y 2).val < 128 := (y 2).isLt
  rw [View.read_apply]
  show (outsAt0 m c t).2 ((cfg0.win 5).xinj (grid0.coords t) y) = appendRows (vCache m c) (vRow m c) (((cfg0.win 5).blk t).view.emb y)
  unfold outsAt0
  dsimp only
  refine (congrFun (out_v c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) (iblk m c 3 t)) _).trans ?_
  by_cases hy : (y 1).val < 4096
  · refine (appendRowBlk_of_cache _ _ _ (ix3 (0 : Fin 1) (⟨(y 1).val, hy⟩ : Fin 4096) (⟨(y 2).val, hy2⟩ : Fin 128)) rfl rfl).trans ?_
    refine (vCache_blk m c t _ (ix3 (⟨t.val, htN⟩ : Fin 128) (⟨(y 1).val, hy⟩ : Fin 4096) (⟨(y 2).val, hy2⟩ : Fin 128)) rfl rfl rfl).trans ?_
    refine (appendRows_of_cache _ _ _ _ ?_ ?_ ?_).symm
    · show win0_5.index t (0 : Fin 3) * 1 + 1 * (y 0).val = t.val; omega
    · show win0_5.index t (1 : Fin 3) * 4097 + 1 * (y 1).val = (y 1).val; omega
    · show win0_5.index t (2 : Fin 3) * 128 + 1 * (y 2).val = (y 2).val; omega
  · have hy1 : (y 1).val < 4097 := (y 1).isLt
    refine (appendRowBlk_of_row _ _ _ (ix3 (0 : Fin 1) (0 : Fin 1) (⟨(y 2).val, hy2⟩ : Fin 128)) ?_ rfl).trans ?_
    · show (y 1).val = 4096 + 0; omega
    refine (vRow_blk m c t _ (ix3 (⟨t.val, htN⟩ : Fin 128) (0 : Fin 1) (⟨(y 2).val, hy2⟩ : Fin 128)) rfl rfl rfl).trans ?_
    refine (appendRows_of_row _ _ _ _ ?_ ?_ ?_).symm
    · show win0_5.index t (0 : Fin 3) * 1 + 1 * (y 0).val = t.val; omega
    · show win0_5.index t (1 : Fin 3) * 4097 + 1 * (y 1).val = 4096 + 0; omega
    · show win0_5.index t (2 : Fin 3) * 128 + 1 * (y 2).val = (y 2).val; omega

/-- Every index of the v output array lies in the block of the point its pair coordinate names. -/
theorem cover_v (i : S128x4097x128.Idx) :
    ∃ t : Fin cfg0.N, (cfg0.win 5).flush t = true ∧ i ∈ ((cfg0.win 5).blk t).view.set := by
  have hi0 : (i 0).val < 128 := (i 0).isLt
  have hi1 : (i 1).val < 4097 := (i 1).isLt
  have hi2 : (i 2).val < 128 := (i 2).isLt
  obtain ⟨t, ht⟩ : ∃ t : Fin cfg0.N, t.val = (i 0).val := ⟨⟨(i 0).val, lt_of_lt_of_eq hi0 N_0.symm⟩, rfl⟩
  have e := idx_facts t
  refine ⟨t, flush0_5 t, ?_⟩
  show i ∈ ((View.whole main_v4_1).slice (win0_5.rect t)).set
  rw [View.set_slice_whole, Rect.mem_set_unit]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 4097 ≤ (i 1).val ∧ (i 1).val < win0_5.index t (1 : Fin 3) * 4097 + 4097; omega
  | ⟨2, _⟩ => show win0_5.index t (2 : Fin 3) * 128 ≤ (i 2).val ∧ (i 2).val < win0_5.index t (2 : Fin 3) * 128 + 128; omega

/-- The v output array after the region: per pair, the v cache's rows followed by the new v row. -/
theorem final_v (c : Dev nD) : (dats m 0 c).arrAt 5 cfg0.N = appendRows (vCache m c) (vRow m c) :=
  (dats m 0 c).arrAt_eq_of_cover 5 (appendRows (vCache m c) (vRow m c)) (fun t _ => flushed_v m c t) cover_v

end Cert.KernelIdeal.KvValue

end
-- ==== Proof.KernelRun.lean ====
/-
  The whole kernel program read as values: reshape, append per pair, reshape back.

  Before the region the four arguments are flattened over batch and head ([4, 32, n, 128] to [128, n, 128]); the
  region leaves in each flattened output array, per pair, the cache's rows followed by the new row; after the
  region the two outputs are reshaped back to [4, 32, 4097, 128].  So each result is the un-flattening of the
  per-pair append of the flattened cache and the flattened new row, and the four arguments end as they started.
-/
import proofs.«139298_j18270790877290_1_alg».proof.Proof.Gen.KernelIdeal.Frame
import proofs.«139298_j18270790877290_1_alg».proof.Proof.OutputArrays
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KvValue

open Cert.KernelIdeal Cert.KernelIdeal.Gen Cert.KvAppend

variable {F : FTy → Type} [FloatOps F]
variable (m : (ℓ : Loc nD τ sig) → Buf (Elt F) ℓ) (ρ : Dev nD → PrngReg)

/-- The flattened arrays the region finds are the reshapes of the four arguments. -/
theorem kCache_eq (c : Dev nD) : kCache m c
    = shapeCast S128x4096x128 (m ((c : Thread nD τ).loc main_arg0)) shapeCasts_S4x32x4096x128_S128x4096x128 := by
  show StableHlo.after hostOps0 (fun b => m (c, b)) (Proc.devRef .tc main_v0) = _
  after_results
  rfl
theorem vCache_eq (c : Dev nD) : vCache m c
    = shapeCast S128x4096x128 (m ((c : Thread nD τ).loc main_arg1)) shapeCasts_S4x32x4096x128_S128x4096x128 := by
  show StableHlo.after hostOps0 (fun b => m (c, b)) (Proc.devRef .tc main_v1) = _
  after_results
  rfl
theorem kRow_eq (c : Dev nD) : kRow m c
    = shapeCast S128x1x128 (m ((c : Thread nD τ).loc main_arg2)) shapeCasts_S4x32x1x128_S128x1x128 := by
  show StableHlo.after hostOps0 (fun b => m (c, b)) (Proc.devRef .tc main_v2) = _
  after_results
  rfl
theorem vRow_eq (c : Dev nD) : vRow m c
    = shapeCast S128x1x128 (m ((c : Thread nD τ).loc main_arg3)) shapeCasts_S4x32x1x128_S128x1x128 := by
  show StableHlo.after hostOps0 (fun b => m (c, b)) (Proc.devRef .tc main_v3) = _
  after_results
  rfl

/-- The flattened output arrays as the lines after the region find them. -/
theorem exit_k (c : Dev nD) :
    Pipeline.withArrays (cfgs 0).spec c (V0 m c) (fun w => (dats m 0 c).arrAt w (cfgs 0).N) (Proc.devRef .tc main_v4_0)
      = appendRows (kCache m c) (kRow m c) :=
  (Pipeline.withArrays_arr spec0 launch0.win.arr_inj c _ _ 4).trans (final_k m c)
theorem exit_v (c : Dev nD) :
    Pipeline.withArrays (cfgs 0).spec c (V0 m c) (fun w => (dats m 0 c).arrAt w (cfgs 0).N) (Proc.devRef .tc main_v4_1)
      = appendRows (vCache m c) (vRow m c) :=
  (Pipeline.withArrays_arr spec0 launch0.win.arr_inj c _ _ 5).trans (final_v m c)

/-- What each result ends holding: flatten the cache and the new row, append per pair, reshape back. -/
abbrev appendedOf (x : Vec F S4x32x4096x128 .f32) (v : Vec F S4x32x1x128 .f32) : Vec F S4x32x4097x128 .f32 :=
  shapeCast S4x32x4097x128
    (appendRows (shapeCast S128x4096x128 x shapeCasts_S4x32x4096x128_S128x4096x128)
      (shapeCast S128x1x128 v shapeCasts_S4x32x1x128_S128x1x128))
    shapeCasts_S128x4097x128_S4x32x4097x128

/-- The key result after the lines that follow the region. -/
theorem tail_k (c : Dev nD) : Pipeline.afterTail₀ cfgs (dats m) 0 (V0 m) [hostOps1] c main_v5
    = appendedOf (m ((c : Thread nD τ).loc main_arg0)) (m ((c : Thread nD τ).loc main_arg2)) := by
  unfold Pipeline.afterTail₀
  show StableHlo.after hostOps1 _ (Proc.devRef .tc main_v5) = _
  after_results
  rw [exit_k, kCache_eq, kRow_eq]
  rfl
/-- The value result after the lines that follow the region. -/
theorem tail_v (c : Dev nD) : Pipeline.afterTail₀ cfgs (dats m) 0 (V0 m) [hostOps1] c main_v6
    = appendedOf (m ((c : Thread nD τ).loc main_arg1)) (m ((c : Thread nD τ).loc main_arg3)) := by
  unfold Pipeline.afterTail₀
  show StableHlo.after hostOps1 _ (Proc.devRef .tc main_v6) = _
  after_results
  rw [exit_v, vCache_eq, vRow_eq]
  rfl

/-- The run: every weakly fair execution terminates with both results at the appended arrays and the four
    arguments unchanged. -/
theorem run : θ_run defs (onTc (τ := τ) (main (F := F))) ⟨m, fun _ => 0, ρ⟩ fun r => ∀ c : Dev nD,
      r.2.mem ((c : Thread nD τ).loc main_v5) = appendedOf (m ((c : Thread nD τ).loc main_arg0)) (m ((c : Thread nD τ).loc main_arg2))
      ∧ r.2.mem ((c : Thread nD τ).loc main_v6) = appendedOf (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c =>
    ⟨((h c).2 main_v5 (Pipeline.mem_restRefs_of main_v5 (by decide) (by decide))).trans (tail_k m c),
      ((h c).2 main_v6 (Pipeline.mem_restRefs_of main_v6 (by decide) (by decide))).trans (tail_v m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.KvValue

end
-- ==== Proof.lean ====
/-
  Appending a new key row and a new value row to a key cache and a value cache.

  The kernel takes caches of shape [4, 32, 4096, 128] and new rows of shape [4, 32, 1, 128].  It flattens batch and
  head to one axis of 128 pairs, and for each pair copies the 4096 cache rows to rows 0 .. 4095 of a block of
  4097 rows and the new row to row 4096; it then reshapes the two [128, 4097, 128] outputs back to
  [4, 32, 4097, 128].  The reference concatenates cache and new row along the sequence axis.  Both read, at
  (b, h, s, d), the cache at (b, h, s, d) when s < 4096 and the new row at (b, h, 0, d) when s = 4096: the
  reshapes keep row-major positions, and b * 32 + h names the same pair on both sides.  Nothing is computed
  with the values, so the equality holds for every input and the finiteness of the inputs is never used.

  Proof/RowBlock.lean and Proof/AppendRows.lean state the appended block and the appended array as functions of
  indices and prove that the un-flattened append is the concatenation; Proof/BlockStores.lean reads the two
  stores of one run of the body as the appended block; Proof/OutputArrays.lean carries the 128 blocks to the
  whole output arrays; Proof/KernelRun.lean adds the reshapes before and after the region.  The three frames
  are the generated frame runs and the reference's generated run; the idealization rewrote nothing.
-/
import proofs.«139298_j18270790877290_1_alg».proof.Defs
import proofs.«139298_j18270790877290_1_alg».proof.Proof.Gen.Kernel
import proofs.«139298_j18270790877290_1_alg».proof.Proof.Gen.Kernel.Skeleton
import proofs.«139298_j18270790877290_1_alg».proof.Proof.Gen.Kernel.Launch
import proofs.«139298_j18270790877290_1_alg».proof.Proof.Gen.Kernel.Points
import proofs.«139298_j18270790877290_1_alg».proof.Proof.Gen.Kernel.Frame
import proofs.«139298_j18270790877290_1_alg».proof.Proof.Gen.KernelIdeal
import proofs.«139298_j18270790877290_1_alg».proof.Proof.Gen.KernelIdeal.Skeleton
import proofs.«139298_j18270790877290_1_alg».proof.Proof.Gen.KernelIdeal.Launch
import proofs.«139298_j18270790877290_1_alg».proof.Proof.Gen.KernelIdeal.Points
import proofs.«139298_j18270790877290_1_alg».proof.Proof.Gen.KernelIdeal.Frame
import proofs.«139298_j18270790877290_1_alg».proof.Proof.Gen.ReferenceIdeal
import proofs.«139298_j18270790877290_1_alg».proof.Proof.Gen.Pre_finite_inputs
import proofs.«139298_j18270790877290_1_alg».proof.Proof.Gen.ReferenceIdeal.Run
import proofs.«139298_j18270790877290_1_alg».proof.Proof.AppendRows
import proofs.«139298_j18270790877290_1_alg».proof.Proof.KernelRun
import Idealize.ShloMosaic.Adequacy
import Idealize.ShloMosaic.Init

noncomputable section

namespace Cert.Proof

open Idealize.ShloMosaic Idealize.SL.Sem

/-- The word-level kernel runs and leaves its arguments unchanged: its generated frame run. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and leaves its arguments unchanged: its generated run with the results dropped. -/
theorem frame_reference : Cert.frame_ReferenceIdeal := fun m ρ _ =>
  (θ_run Cert.ReferenceIdeal.defs _ _).mono
    (fun _ h c => ⟨(h c).2.2.1, (h c).2.2.2.1, (h c).2.2.2.2.1, (h c).2.2.2.2.2⟩)
    (Cert.ReferenceIdeal.Value.run (F := Ideal) m ρ)

/-- The idealization changed no operation. -/
theorem preserves : Cert.preserves_Kernel_KernelIdeal := trivial

/-- Both programs end with, for keys and for values, the cache followed by the new row along the sequence axis:
    the kernel as the un-flattened per-pair append, the reference as the concatenation, which are one array. -/
theorem algebraic : Cert.algebraic_KernelIdeal_ReferenceIdeal := by
  intro m ρ m' ρ' _ hagree
  refine ⟨fun c => Cert.KernelIdeal.KvValue.appendedOf
      (m ((c.tc : Thread Cert.KernelIdeal.nD Cert.KernelIdeal.τ).loc Cert.KernelIdeal.main_arg0))
      (m ((c.tc : Thread Cert.KernelIdeal.nD Cert.KernelIdeal.τ).loc Cert.KernelIdeal.main_arg2)),
    fun c => Cert.KernelIdeal.KvValue.appendedOf
      (m ((c.tc : Thread Cert.KernelIdeal.nD Cert.KernelIdeal.τ).loc Cert.KernelIdeal.main_arg1))
      (m ((c.tc : Thread Cert.KernelIdeal.nD Cert.KernelIdeal.τ).loc Cert.KernelIdeal.main_arg3)),
    Cert.KernelIdeal.KvValue.run (F := Ideal) m ρ, ?_⟩
  refine (θ_run Cert.ReferenceIdeal.defs _ _).mono (fun _ h c => ?_)
    (Cert.ReferenceIdeal.Value.run (F := Ideal) m' ρ')
  obtain ⟨hk, hv, ha0, ha1, ha2, ha3⟩ := h c
  obtain ⟨e0, e1, e2, e3⟩ := hagree c
  refine ⟨hk.trans ?_, hv.trans ?_, ha0, ha1, ha2, ha3⟩
  · rw [e0, e2]
    exact (Cert.KvAppend.unflatten_appendRows _ _ _ _ _ _).symm
  · rw [e1, e3]
    exact (Cert.KvAppend.unflatten_appendRows _ _ _ _ _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
